-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x512 : Shape := ⟨2, ![512, 512]⟩
abbrev S512 : Shape := ⟨1, ![512]⟩
abbrev S200000 : Shape := ⟨1, ![200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S100000x512 .f32) (main_arg1 : FVec F S512x512 .f32) (main_arg2 : FVec F S512x512 .f32) (main_arg3 : FVec F S512x512 .f32) (main_arg4 : FVec F S512 .f32) (main_arg5 : FVec F S512 .f32) (main_arg6 : IVec S200000 32) (main_arg7 : IVec S200000 32) (main_arg8 : IVec S200000 32) (main_arg9 : IVec S200000 32) (main_arg10 : IVec S200000 32) (main_arg11 : IVec S200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S100000x512 : Shape := ⟨2, ![100000, 512]⟩
abbrev S512x512 : Shape := ⟨2, ![512, 512]⟩
abbrev S512 : Shape := ⟨1, ![512]⟩
abbrev S200000 : Shape := ⟨1, ![200000]⟩
abbrev S_ : Shape := ⟨0, ![]⟩
abbrev S2000x512 : Shape := ⟨2, ![2000, 512]⟩
abbrev S200000x1 : Shape := ⟨2, ![200000, 1]⟩
abbrev S200000x512 : Shape := ⟨2, ![200000, 512]⟩
abbrev S100000 : Shape := ⟨1, ![100000]⟩
abbrev S100000x1 : Shape := ⟨2, ![100000, 1]⟩
abbrev S1x512 : Shape := ⟨2, ![1, 512]⟩
abbrev S1000x512 : Shape := ⟨2, ![1000, 512]⟩
abbrev S1000 : Shape := ⟨1, ![1000]⟩
abbrev S1000x1 : Shape := ⟨2, ![1000, 1]⟩

abbrev nBuf : Space → Nat
  | .hbm => 102
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S200000, .i32⟩
  | .hbm, ⟨7, _⟩ => ⟨S200000, .i32⟩
  | .hbm, ⟨8, _⟩ => ⟨S200000, .i32⟩
  | .hbm, ⟨9, _⟩ => ⟨S200000, .i32⟩
  | .hbm, ⟨10, _⟩ => ⟨S200000, .i32⟩
  | .hbm, ⟨11, _⟩ => ⟨S200000, .i32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S100000x512, .f32⟩
  | .hbm, ⟨19, _⟩ => ⟨S_, .i32⟩
  | .hbm, ⟨20, _⟩ => ⟨S200000, .i32⟩
  | .hbm, ⟨21, _⟩ => ⟨S200000, .i1⟩
  | .hbm, ⟨22, _⟩ => ⟨S_, .i32⟩
  | .hbm, ⟨23, _⟩ => ⟨S200000, .i32⟩
  | .hbm, ⟨24, _⟩ => ⟨S200000, .i32⟩
  | .hbm, ⟨25, _⟩ => ⟨S200000, .i32⟩
  | .hbm, ⟨26, _⟩ => ⟨S200000x1, .i32⟩
  | .hbm, ⟨27, _⟩ => ⟨S200000x512, .f32⟩
  | .hbm, ⟨28, _⟩ => ⟨S_, .f32⟩
  | .hbm, ⟨29, _⟩ => ⟨S100000x512, .f32⟩
  | .hbm, ⟨30, _⟩ => ⟨S200000x1, .i32⟩
  | .hbm, ⟨31, _⟩ => ⟨S100000x512, .f32⟩
  | .hbm, ⟨32, _⟩ => ⟨S_, .f32⟩
  | .hbm, ⟨33, _⟩ => ⟨S200000, .f32⟩
  | .hbm, ⟨34, _⟩ => ⟨S_, .f32⟩
  | .hbm, ⟨35, _⟩ => ⟨S100000, .f32⟩
  | .hbm, ⟨36, _⟩ => ⟨S200000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x512, .f32⟩
  | .hbm, ⟨43, _⟩ => ⟨S100000x512, .f32⟩
  | .hbm, ⟨44, _⟩ => ⟨S_, .i32⟩
  | .hbm, ⟨45, _⟩ => ⟨S200000, .i32⟩
  | .hbm, ⟨46, _⟩ => ⟨S200000, .i1⟩
  | .hbm, ⟨47, _⟩ => ⟨S_, .i32⟩
  | .hbm, ⟨48, _⟩ => ⟨S200000, .i32⟩
  | .hbm, ⟨49, _⟩ => ⟨S200000, .i32⟩
  | .hbm, ⟨50, _⟩ => ⟨S200000, .i32⟩
  | .hbm, ⟨51, _⟩ => ⟨S200000x1, .i32⟩
  | .hbm, ⟨52, _⟩ => ⟨S200000x512, .f32⟩
  | .hbm, ⟨53, _⟩ => ⟨S_, .f32⟩
  | .hbm, ⟨54, _⟩ => ⟨S100000x512, .f32⟩
  | .hbm, ⟨55, _⟩ => ⟨S200000x1, .i32⟩
  | .hbm, ⟨56, _⟩ => ⟨S100000x512, .f32⟩
  | .hbm, ⟨57, _⟩ => ⟨S_, .f32⟩
  | .hbm, ⟨58, _⟩ => ⟨S200000, .f32⟩
  | .hbm, ⟨59, _⟩ => ⟨S_, .f32⟩
  | .hbm, ⟨60, _⟩ => ⟨S100000, .f32⟩
  | .hbm, ⟨61, _⟩ => ⟨S200000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x512, .f32⟩
  | .hbm, ⟨68, _⟩ => ⟨S100000x512, .f32⟩
  | .hbm, ⟨69, _⟩ => ⟨S_, .i32⟩
  | .hbm, ⟨70, _⟩ => ⟨S200000, .i32⟩
  | .hbm, ⟨71, _⟩ => ⟨S200000, .i1⟩
  | .hbm, ⟨72, _⟩ => ⟨S_, .i32⟩
  | .hbm, ⟨73, _⟩ => ⟨S200000, .i32⟩
  | .hbm, ⟨74, _⟩ => ⟨S200000, .i32⟩
  | .hbm, ⟨75, _⟩ => ⟨S200000, .i32⟩
  | .hbm, ⟨76, _⟩ => ⟨S200000x1, .i32⟩
  | .hbm, ⟨77, _⟩ => ⟨S200000x512, .f32⟩
  | .hbm, ⟨78, _⟩ => ⟨S_, .f32⟩
  | .hbm, ⟨79, _⟩ => ⟨S100000x512, .f32⟩
  | .hbm, ⟨80, _⟩ => ⟨S200000x1, .i32⟩
  | .hbm, ⟨81, _⟩ => ⟨S100000x512, .f32⟩
  | .hbm, ⟨82, _⟩ => ⟨S_, .f32⟩
  | .hbm, ⟨83, _⟩ => ⟨S200000, .f32⟩
  | .hbm, ⟨84, _⟩ => ⟨S_, .f32⟩
  | .hbm, ⟨85, _⟩ => ⟨S100000, .f32⟩
  | .hbm, ⟨86, _⟩ => ⟨S200000x1, .i32⟩
  | .hbm, ⟨87, _⟩ => ⟨S100000, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x512, .f32⟩
  | .hbm, ⟨93, _⟩ => ⟨S100000x512, .f32⟩
  | .hbm, ⟨94, _⟩ => ⟨S100000x512, .f32⟩
  | .hbm, ⟨95, _⟩ => ⟨S100000x512, .f32⟩
  | .hbm, ⟨96, _⟩ => ⟨S_, .f32⟩
  | .hbm, ⟨97, _⟩ => ⟨S100000x512, .f32⟩
  | .hbm, ⟨98, _⟩ => ⟨S100000x512, .f32⟩
  | .hbm, ⟨99, _⟩ => ⟨S1x512, .f32⟩
  | .hbm, ⟨100, _⟩ => ⟨S1x512, .f32⟩
  | .hbm, ⟨101, _⟩ => ⟨S100000x512, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S1000x512, .f32⟩
  | .local _ .vmem, ⟨6, _⟩ => ⟨S1000x512, .f32⟩
  | .local _ .vmem, ⟨7, _⟩ => ⟨S1x512, .f32⟩
  | .local _ .vmem, ⟨8, _⟩ => ⟨S1x512, .f32⟩
  | .local _ .vmem, ⟨9, _⟩ => ⟨S1000x512, .f32⟩
  | .local _ .vmem, ⟨10, _⟩ => ⟨S1000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_13 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_14 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_16 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_17 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S512x512 : S_.BroadcastsInDim S512x512 (![] : Fin 0 → Fin S512x512.rank)
  transposes_S512x512_S512x512_1_0 : S512x512.Transposes [1, 0] S512x512
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S_S200000 : S_.BroadcastsInDim S200000 (![] : Fin 0 → Fin S200000.rank)
  bcast_S200000_S200000x1_0 : S200000.BroadcastsInDim S200000x1 (![0] : Fin 1 → Fin S200000x1.rank)
  bcast_S_S100000x512 : S_.BroadcastsInDim S100000x512 (![] : Fin 0 → Fin S100000x512.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  reduces_S1000x512_S1000 : S1000x512.Reduces [1] S1000
  shapeCasts_S1000_S1000x1 : S1000.ShapeCasts S1000x1
  broadcasts_S1000x1_S1000x512 : S1000x1.Broadcasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  dot_S2000x512_S512x512_S2000x512_1_0_0_1_n_n_wf : DotDims.WF S2000x512 S512x512 S2000x512 [1] [0] [0] [1] [] []
  gather_S100000x512_S200000x1_S200000x512_1_0_n_n_0_1_1512_wf : GatherDims.WF S100000x512 S200000x1 S200000x512 [1] [0] [] [0] [] 1 ![1, 512]
  scatter_S100000x512_S200000x1_S200000x512_1_0_0_1_wf : ScatterDims.WF S100000x512 S200000x1 S200000x512 [1] [0] [0] 1
  scatter_S100000_S200000x1_S200000_n_0_0_1_wf : ScatterDims.WF S100000 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S100000x512.size a
  hwx0_2 : ∀ i : grid0.Coords, EltTy.bits .f32 = 32 ∨ (Rect.block (s := S100000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S100000x512.size a
  hwx1_0 : ∀ i : grid1.Coords, EltTy.bits .f32 = 32 ∨ (Rect.block (s := S100000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S100000x512.size a
  hwx1_3 : ∀ i : grid1.Coords, EltTy.bits .f32 = 32 ∨ (Rect.block (s := S100000x512) S1000x512.size (cc1_transform_3 i) (hinb1_3 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S100000x512_S200000x1_S200000x512_1_0_n_n_0_1_1512 : GatherDims S100000x512 S200000x1 S200000x512 where
  offsetDims := [1]
  collapsedSliceDims := [0]
  operandBatchingDims := []
  startIndicesBatchingDims := []
  startIndexMap := [0]
  indexVectorDim := 1
  sliceSizes := ![1, 512]
  wf := gather_S100000x512_S200000x1_S200000x512_1_0_n_n_0_1_1512_wf
def scatter_S100000x512_S200000x1_S200000x512_1_0_0_1 : ScatterDims S100000x512 S200000x1 S200000x512 where
  updateWindowDims := [1]
  insertedWindowDims := [0]
  scatterDimsToOperandDims := [0]
  indexVectorDim := 1
  wf := scatter_S100000x512_S200000x1_S200000x512_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v66) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v68) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x512 : Shape := ⟨2, ![512, 512]⟩
abbrev S512 : Shape := ⟨1, ![512]⟩
abbrev S200000 : Shape := ⟨1, ![200000]⟩
abbrev S_ : Shape := ⟨0, ![]⟩
abbrev S200000x1 : Shape := ⟨2, ![200000, 1]⟩
abbrev S200000x512 : Shape := ⟨2, ![200000, 512]⟩
abbrev S100000 : Shape := ⟨1, ![100000]⟩
abbrev S100000x1 : Shape := ⟨2, ![100000, 1]⟩
abbrev S1x512 : Shape := ⟨2, ![1, 512]⟩

abbrev nBuf : Space → Nat
  | .hbm => 135
  | .vmem => 0
  | .smem => 0
  | _ => 0

abbrev hbmTy0_0 (i : Nat) : BufTy := match i % 128 with
  | 0 => ⟨S100000x512, .f32⟩
  | 1 => ⟨S512x512, .f32⟩
  | 2 => ⟨S512x512, .f32⟩
  | 3 => ⟨S512x512, .f32⟩
  | 4 => ⟨S512, .f32⟩
  | 5 => ⟨S512, .f32⟩
  | 6 => ⟨S200000, .i32⟩
  | 7 => ⟨S200000, .i32⟩
  | 8 => ⟨S200000, .i32⟩
  | 9 => ⟨S200000, .i32⟩
  | 10 => ⟨S200000, .i32⟩
  | 11 => ⟨S200000, .i32⟩
  | 12 => ⟨S512x512, .f32⟩
  | 13 => ⟨S100000x512, .f32⟩
  | 14 => ⟨S512x512, .f32⟩
  | 15 => ⟨S100000x512, .f32⟩
  | 16 => ⟨S100000x512, .f32⟩
  | 17 => ⟨S512x512, .f32⟩
  | 18 => ⟨S100000x512, .f32⟩
  | 19 => ⟨S100000x512, .f32⟩
  | 20 => ⟨S_, .f32⟩
  | 21 => ⟨S100000x512, .f32⟩
  | 22 => ⟨S100000x512, .f32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x512, .f32⟩
  | 32 => ⟨S_, .f32⟩
  | 33 => ⟨S100000x512, .f32⟩
  | 34 => ⟨S200000x1, .i32⟩
  | 35 => ⟨S100000x512, .f32⟩
  | 36 => ⟨S_, .f32⟩
  | 37 => ⟨S200000, .f32⟩
  | 38 => ⟨S_, .f32⟩
  | 39 => ⟨S100000, .f32⟩
  | 40 => ⟨S200000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x512, .f32⟩
  | 47 => ⟨S100000x512, .f32⟩
  | 48 => ⟨S_, .i32⟩
  | 49 => ⟨S200000, .i32⟩
  | 50 => ⟨S200000, .i1⟩
  | 51 => ⟨S_, .i32⟩
  | 52 => ⟨S200000, .i32⟩
  | 53 => ⟨S200000, .i32⟩
  | 54 => ⟨S200000, .i32⟩
  | 55 => ⟨S200000x1, .i32⟩
  | 56 => ⟨S200000x512, .f32⟩
  | 57 => ⟨S_, .f32⟩
  | 58 => ⟨S100000x512, .f32⟩
  | 59 => ⟨S200000x1, .i32⟩
  | 60 => ⟨S100000x512, .f32⟩
  | 61 => ⟨S_, .f32⟩
  | 62 => ⟨S200000, .f32⟩
  | 63 => ⟨S_, .f32⟩
  | 64 => ⟨S100000, .f32⟩
  | 65 => ⟨S200000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x512, .f32⟩
  | 72 => ⟨S100000x512, .f32⟩
  | 73 => ⟨S_, .i32⟩
  | 74 => ⟨S200000, .i32⟩
  | 75 => ⟨S200000, .i1⟩
  | 76 => ⟨S_, .i32⟩
  | 77 => ⟨S200000, .i32⟩
  | 78 => ⟨S200000, .i32⟩
  | 79 => ⟨S200000, .i32⟩
  | 80 => ⟨S200000x1, .i32⟩
  | 81 => ⟨S200000x512, .f32⟩
  | 82 => ⟨S_, .f32⟩
  | 83 => ⟨S100000x512, .f32⟩
  | 84 => ⟨S200000x1, .i32⟩
  | 85 => ⟨S100000x512, .f32⟩
  | 86 => ⟨S_, .f32⟩
  | 87 => ⟨S200000, .f32⟩
  | 88 => ⟨S_, .f32⟩
  | 89 => ⟨S100000, .f32⟩
  | 90 => ⟨S200000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x512, .f32⟩
  | 97 => ⟨S100000x512, .f32⟩
  | 98 => ⟨S100000x512, .f32⟩
  | 99 => ⟨S100000x512, .f32⟩
  | 100 => ⟨S_, .f32⟩
  | 101 => ⟨S100000x512, .f32⟩
  | 102 => ⟨S100000x512, .f32⟩
  | 103 => ⟨S_, .f32⟩
  | 104 => ⟨S100000x512, .f32⟩
  | 105 => ⟨S100000x512, .f32⟩
  | 106 => ⟨S_, .f32⟩
  | 107 => ⟨S100000, .f32⟩
  | 108 => ⟨S100000x1, .f32⟩
  | 109 => ⟨S_, .f32⟩
  | 110 => ⟨S100000x1, .f32⟩
  | 111 => ⟨S100000x1, .f32⟩
  | 112 => ⟨S100000x512, .f32⟩
  | 113 => ⟨S100000x512, .f32⟩
  | 114 => ⟨S100000x512, .f32⟩
  | 115 => ⟨S_, .f32⟩
  | 116 => ⟨S100000, .f32⟩
  | 117 => ⟨S100000x1, .f32⟩
  | 118 => ⟨S_, .f32⟩
  | 119 => ⟨S100000x1, .f32⟩
  | 120 => ⟨S100000x1, .f32⟩
  | 121 => ⟨S100000x512, .f32⟩
  | 122 => ⟨S100000x512, .f32⟩
  | 123 => ⟨S_, .f32⟩
  | 124 => ⟨S100000x1, .f32⟩
  | 125 => ⟨S100000x1, .f32⟩
  | 126 => ⟨S100000x1, .f32⟩
  | 127 => ⟨S100000x512, .f32⟩
  | _ => ⟨S100000x512, .f32⟩

abbrev hbmTy0_1 (i : Nat) : BufTy := match i % 128 with
  | 0 => ⟨S100000x512, .f32⟩
  | 1 => ⟨S1x512, .f32⟩
  | 2 => ⟨S100000x512, .f32⟩
  | 3 => ⟨S100000x512, .f32⟩
  | 4 => ⟨S1x512, .f32⟩
  | 5 => ⟨S100000x512, .f32⟩
  | 6 => ⟨S100000x512, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_17 : Ref sig .tc := ⟨.hbm, 100, rfl⟩
abbrev main_v69 : Ref sig .tc := ⟨.hbm, 101, rfl⟩
abbrev main_v70 : Ref sig .tc := ⟨.hbm, 102, rfl⟩
abbrev main_call0_cst : Ref sig .tc := ⟨.hbm, 103, rfl⟩
abbrev main_call0_v0 : Ref sig .tc := ⟨.hbm, 104, rfl⟩
abbrev main_v71 : Ref sig .tc := ⟨.hbm, 105, rfl⟩
abbrev main_cst_18 : Ref sig .tc := ⟨.hbm, 106, rfl⟩
abbrev main_v72 : Ref sig .tc := ⟨.hbm, 107, rfl⟩
abbrev main_v73 : Ref sig .tc := ⟨.hbm, 108, rfl⟩
abbrev main_cst_19 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_20 : Ref sig .tc := ⟨.hbm, 115, rfl⟩
abbrev main_v79 : Ref sig .tc := ⟨.hbm, 116, rfl⟩
abbrev main_v80 : Ref sig .tc := ⟨.hbm, 117, rfl⟩
abbrev main_cst_21 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_22 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩

abbrev nD : Nat := 1
abbrev τ : Topo := Topo.v7x

variable {F : FTy → Type} [FloatOps F]

class Facts₀ : Prop where
  transposes_S512x512_S512x512_1_0 : S512x512.Transposes [1, 0] S512x512
  bcast_S_S100000x512 : S_.BroadcastsInDim S100000x512 (![] : Fin 0 → Fin S100000x512.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  reducesTo_S100000x512_S100000_d1 : S100000x512.ReducesTo [1] S100000
  h_S_ : 0 < S_.numel
  bcast_S_S100000x1 : S_.BroadcastsInDim S100000x1 (![] : Fin 0 → Fin S100000x1.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  dot_S100000x512_S512x512_S100000x512_1_0_0_1_n_n_wf : DotDims.WF S100000x512 S512x512 S100000x512 [1] [0] [0] [1] [] []
  gather_S100000x512_S200000x1_S200000x512_1_0_n_n_0_1_1512_wf : GatherDims.WF S100000x512 S200000x1 S200000x512 [1] [0] [] [0] [] 1 ![1, 512]
  scatter_S100000x512_S200000x1_S200000x512_1_0_0_1_wf : ScatterDims.WF S100000x512 S200000x1 S200000x512 [1] [0] [0] 1
  scatter_S100000_S200000x1_S200000_n_0_0_1_wf : ScatterDims.WF S100000 S200000x1 S200000 [] [0] [0] 1

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def gather_S100000x512_S200000x1_S200000x512_1_0_n_n_0_1_1512 : GatherDims S100000x512 S200000x1 S200000x512 where
  offsetDims := [1]
  collapsedSliceDims := [0]
  operandBatchingDims := []
  startIndicesBatchingDims := []
  startIndexMap := [0]
  indexVectorDim := 1
  sliceSizes := ![1, 512]
  wf := gather_S100000x512_S200000x1_S200000x512_1_0_n_n_0_1_1512_wf
def scatter_S100000x512_S200000x1_S200000x512_1_0_0_1 : ScatterDims S100000x512 S200000x1 S200000x512 where
  updateWindowDims := [1]
  insertedWindowDims := [0]
  scatterDimsToOperandDims := [0]
  indexVectorDim := 1
  wf := scatter_S100000x512_S200000x1_S200000x512_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf

class Facts : Prop extends Facts₀ where

variable [Facts]
-- ==== Proof.Spec.lean ====
/-
  The mathematics both programs compute, over the literal extents (100000 nodes, 512 features, 512 outputs).

  * The hidden state. One program forms, per node `n` and output feature `j`, the single sum
    `∑ k, x[n,k] · ((W0[j,k] + W1[j,k] + W2[j,k]) / 3)` (`hidFused`); the other forms the three sums
    `∑ k, x[n,k] · Wr[j,k]`, adds them and divides by 3 (`hidSplit`). On the extended reals the two agree when every
    entry of `x` and of the three weight arrays is a real number (`hidFused_eq_hidSplit`): multiplication distributes over
    the finite sums and the division by 3 is a product with 1/3. At an infinite entry distributivity fails, which is why
    the finiteness of the inputs is used here and nowhere else.
  * The normalisation. `layerNorm H g b` is, row by row, `a = max(H, 0)`, `μ = (∑ a)/512`, `v = (∑ (a-μ)²)/512`,
    `(a-μ) · rsqrt(v + ε) · g + b`, with the literals kept as their bit patterns (both programs spell the same words).
-/
import Idealize.ShloMosaic.PureOps.Ideal
import Idealize.ShloMosaic.PureOps.Ideal.Laws
import Idealize.ShloMosaic.Lib.ValueIdx
import Mathlib.Data.EReal.Operations
import Mathlib.Algebra.BigOperators.Ring.Finset

noncomputable section

open scoped BigOperators

namespace Cert.Bridge

open Idealize.ShloMosaic Idealize.ShloMosaic.ValueIdx

/-- node features / hidden state: 100000 × 512 -/
abbrev SN : Shape := ⟨2, ![100000, 512]⟩
/-- one relation's weights: 512 × 512 -/
abbrev SW : Shape := ⟨2, ![512, 512]⟩

/-- the divisor 3.0 as both programs spell it -/
abbrev three : EReal := Ideal.ofBits .f32 0x40400000#32
/-- the literal 0.0 -/
abbrev zeroLit : EReal := Ideal.ofBits .f32 0x00000000#32
/-- the row length 512.0 -/
abbrev rowLen : EReal := Ideal.ofBits .f32 0x44000000#32
/-- the variance offset ε (the f32 nearest 1e-5) -/
abbrev epsLit : EReal := Ideal.ofBits .f32 0x3727C5AC#32

/-- 3.0 denotes the real 3. -/
theorem three_eq : three = ((3 : ℝ) : EReal) := by
  simp [three, Ideal.ofBits, Ideal.ieee, -EReal.coe_mul]; norm_num

/-- The hidden state with the three weight arrays averaged BEFORE the product. -/
def hidFused (X : SN.Idx → EReal) (A B C : SW.Idx → EReal) : SN.Idx → EReal := fun i =>
  ∑ k : Fin 512, X (ix2 (i 0) k) * Ideal.div ((A (ix2 (i 1) k) + B (ix2 (i 1) k)) + C (ix2 (i 1) k)) three

/-- The hidden state with the three products averaged AFTER. -/
def hidSplit (X : SN.Idx → EReal) (A B C : SW.Idx → EReal) : SN.Idx → EReal := fun i =>
  Ideal.div (((∑ k : Fin 512, X (ix2 (i 0) k) * A (ix2 (i 1) k)) + ∑ k : Fin 512, X (ix2 (i 0) k) * B (ix2 (i 1) k))
    + ∑ k : Fin 512, X (ix2 (i 0) k) * C (ix2 (i 1) k)) three

/-- A finite sum of reals, coerced, is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Over real entries the two hidden states agree: distributivity of the product over the sums, and the division by 3
    a product with 1/3. -/
theorem hidFused_eq_hidSplit (X : SN.Idx → EReal) (A B C : SW.Idx → EReal)
    (hX : ∀ i, ∃ r : ℝ, X i = (r : EReal)) (hA : ∀ i, ∃ r : ℝ, A i = (r : EReal))
    (hB : ∀ i, ∃ r : ℝ, B i = (r : EReal)) (hC : ∀ i, ∃ r : ℝ, C i = (r : EReal)) :
    hidFused X A B C = hidSplit X A B C := by
  choose x hx using hX
  choose a ha using hA
  choose b hb using hB
  choose c hc using hC
  funext i
  unfold hidFused hidSplit
  simp only [hx, ha, hb, hc, three_eq, Ideal.div_coe (by norm_num : (3 : ℝ) ≠ 0)]
  simp only [← EReal.coe_add, ← EReal.coe_mul, ← coe_sum]
  congr 1
  rw [← Finset.sum_add_distrib, ← Finset.sum_add_distrib, Finset.sum_mul]
  refine Finset.sum_congr rfl fun k _ => ?_
  ring

/-- max(·, 0) entrywise. -/
def relu (H : SN.Idx → EReal) : SN.Idx → EReal := fun i => max (H i) zeroLit

/-- The mean of row `r`. -/
def rowMean (A : SN.Idx → EReal) (r : Fin 100000) : EReal := Ideal.div (∑ q : Fin 512, A (ix2 r q)) rowLen

/-- The mean squared deviation of row `r` from its mean. -/
def rowVar (A : SN.Idx → EReal) (r : Fin 100000) : EReal :=
  Ideal.div (∑ q : Fin 512, (A (ix2 r q) - rowMean A r) * (A (ix2 r q) - rowMean A r)) rowLen

/-- Row-wise normalisation of max(H, 0), scaled by `g` and shifted by `b` along the feature axis. -/
def layerNorm (H : SN.Idx → EReal) (g b : Fin 512 → EReal) : SN.Idx → EReal := fun i =>
  ((relu H i - rowMean (relu H) (i 0)) * Ideal.rsqrt (rowVar (relu H) (i 0) + epsLit)) * g (i 1) + b (i 1)

end Cert.Bridge

end
-- ==== Proof.Chain.lean ====
/-
  The host arithmetic the kernel's program does around its two launches, named as functions of the values it reads.

  * `wAvgT A B C`: the three weight arrays added, divided by 3 and transposed — entry (k, j) is
    `((A[j,k] + B[j,k]) + C[j,k]) / 3` (`wAvgT_apply`).
  * `segMean h src dst`: rows of `h` taken at `src` (a negative index counted from the end), summed into the rows
    `dst` names, each row divided by max(number of edges into it, 1).
  * `relMean h …`: the three relations' `segMean`s added and divided by 3.
  Nothing here is opened by the proof: both programs apply these same operations to the hidden state, so it is enough
  that the hidden states agree.
-/
import proofs.«118880_j86715389706548_1_alg».proof.Proof.Gen.KernelIdeal
import proofs.«118880_j86715389706548_1_alg».proof.Proof.Spec
import Idealize.ShloMosaic.Lib.Pipeline.Value

noncomputable section

namespace Cert.Bridge

open Idealize.ShloMosaic Idealize.ShloMosaic.ValueIdx Cert.KernelIdeal
open Cert.KernelIdeal.Facts₀ Cert.KernelIdeal.Facts

variable {F : FTy → Type} [FloatOps F]

/-- The three weight arrays averaged, then transposed. -/
def wAvgT (A B C : FVec F S512x512 .f32) : FVec F S512x512 .f32 :=
  transpose S512x512 [1, 0]
    (Host.divf (addf (addf A B) C) (broadcastInDim S512x512 ![] bcast_S_S512x512 (constant S_ .f32 0x40400000#32)))
    transposes_S512x512_S512x512_1_0

/-- One relation's mean aggregation of the hidden state `h` over its edges (src → dst). -/
def segMean (h : FVec F S100000x512 .f32) (src dst : IVec S200000 32) : FVec F S100000x512 .f32 :=
  Host.divf
    (Host.scatterAdd scatter_S100000x512_S200000x1_S200000x512_1_0_0_1
      (broadcastInDim S100000x512 ![] bcast_S_S100000x512 (constant S_ .f32 0x00000000#32))
      (broadcastInDim S200000x1 ![0] bcast_S200000_S200000x1_0 dst)
      (Host.gather gather_S100000x512_S200000x1_S200000x512_1_0_n_n_0_1_1512 h
        (broadcastInDim S200000x1 ![0] bcast_S200000_S200000x1_0
          (select (cmpi .slt src (broadcastInDim S200000 ![] bcast_S_S200000 (constantI S_ 32 0#32)))
            (addi src (broadcastInDim S200000 ![] bcast_S_S200000 (constantI S_ 32 100000#32))) src))))
    (broadcastInDim S100000x512 ![0, 1] bcast_S100000x1_S100000x512_0_1
      (broadcastInDim S100000x1 ![0] bcast_S100000_S100000x1_0
        (maximumf
          (Host.scatterAdd scatter_S100000_S200000x1_S200000_n_0_0_1
            (broadcastInDim S100000 ![] bcast_S_S100000 (constant S_ .f32 0x00000000#32))
            (broadcastInDim S200000x1 ![0] bcast_S200000_S200000x1_0 dst)
            (broadcastInDim S200000 ![] bcast_S_S200000 (constant S_ .f32 0x3F800000#32)))
          (broadcastInDim S100000 ![] bcast_S_S100000 (constant S_ .f32 0x3F800000#32)))))

/-- The three relations' aggregations averaged. -/
def relMean (h : FVec F S100000x512 .f32) (s0 d0 s1 d1 s2 d2 : IVec S200000 32) : FVec F S100000x512 .f32 :=
  Host.divf (addf (addf (segMean h s0 d0) (segMean h s1 d1)) (segMean h s2 d2))
    (broadcastInDim S100000x512 ![] bcast_S_S100000x512 (constant S_ .f32 0x40400000#32))

end Cert.Bridge

end
-- ==== Proof.HostK.lean ====
/-
  What the kernel's program holds at the entry of each of its two launches, read through the host operations that
  run before it.

  * First launch: its left operand is the feature array as launched; its right operand is the three weight arrays
    averaged and transposed (`wAvgT`).
  * Second launch: its first operand is `relMean` of whatever the first launch left in its result array, at the six
    edge arrays as launched; its second and third operands are gamma and beta laid out as single rows.
  Each fact is first stated for an arbitrary assignment of contents to buffers (the operations' composed result at one
  buffer), then used at the contents the run has at that point.
-/
import proofs.«118880_j86715389706548_1_alg».proof.Proof.Gen.KernelIdeal.Frame
import proofs.«118880_j86715389706548_1_alg».proof.Proof.Chain
import Idealize.ShloMosaic.Lib.StableHlo.Run
import Idealize.ShloMosaic.Lib.Pipeline.Value
import Idealize.ShloMosaic.Lib.ValueIdx

set_option maxRecDepth 16384

noncomputable section

namespace Cert.Bridge.Host

open Cert.KernelIdeal Cert.KernelIdeal.Gen Cert.Bridge
open Idealize.ShloMosaic Idealize.ShloMosaic.TcCoe Idealize.SL.Sem Idealize.ShloMosaic.StableHlo
open Idealize.ShloMosaic.ValueIdx
open Cert.KernelIdeal.Facts₀ Cert.KernelIdeal.Facts

variable {F : FTy → Type} [FloatOps F]

/-! ## The stretch before the first launch -/

/-- The averaged, transposed weights, from any contents. -/
theorem after0_w (Wv : Valuation τ sig (Elt F)) :
    StableHlo.after (hostOps0 (F := F)) Wv (Proc.devRef .tc main_v4)
      = wAvgT (Wv (Proc.devRef .tc main_arg1)) (Wv (Proc.devRef .tc main_arg2)) (Wv (Proc.devRef .tc main_arg3)) := by
  after_results
  rfl

/-- No operation of the stretch writes an argument. -/
theorem after0_arg0 (Wv : Valuation τ sig (Elt F)) :
    StableHlo.after (hostOps0 (F := F)) Wv (Proc.devRef .tc main_arg0) = Wv (Proc.devRef .tc main_arg0) := by
  after_results
theorem after0_arg4 (Wv : Valuation τ sig (Elt F)) :
    StableHlo.after (hostOps0 (F := F)) Wv (Proc.devRef .tc main_arg4) = Wv (Proc.devRef .tc main_arg4) := by
  after_results
theorem after0_arg5 (Wv : Valuation τ sig (Elt F)) :
    StableHlo.after (hostOps0 (F := F)) Wv (Proc.devRef .tc main_arg5) = Wv (Proc.devRef .tc main_arg5) := by
  after_results
theorem after0_arg6 (Wv : Valuation τ sig (Elt F)) :
    StableHlo.after (hostOps0 (F := F)) Wv (Proc.devRef .tc main_arg6) = Wv (Proc.devRef .tc main_arg6) := by
  after_results
theorem after0_arg7 (Wv : Valuation τ sig (Elt F)) :
    StableHlo.after (hostOps0 (F := F)) Wv (Proc.devRef .tc main_arg7) = Wv (Proc.devRef .tc main_arg7) := by
  after_results
theorem after0_arg8 (Wv : Valuation τ sig (Elt F)) :
    StableHlo.after (hostOps0 (F := F)) Wv (Proc.devRef .tc main_arg8) = Wv (Proc.devRef .tc main_arg8) := by
  after_results
theorem after0_arg9 (Wv : Valuation τ sig (Elt F)) :
    StableHlo.after (hostOps0 (F := F)) Wv (Proc.devRef .tc main_arg9) = Wv (Proc.devRef .tc main_arg9) := by
  after_results
theorem after0_arg10 (Wv : Valuation τ sig (Elt F)) :
    StableHlo.after (hostOps0 (F := F)) Wv (Proc.devRef .tc main_arg10) = Wv (Proc.devRef .tc main_arg10) := by
  after_results
theorem after0_arg11 (Wv : Valuation τ sig (Elt F)) :
    StableHlo.after (hostOps0 (F := F)) Wv (Proc.devRef .tc main_arg11) = Wv (Proc.devRef .tc main_arg11) := by
  after_results

/-! ## The stretch between the launches -/

/-- The averaged aggregations, from any contents. -/
theorem after1_h (Wv : Valuation τ sig (Elt F)) :
    StableHlo.after (hostOps1 (F := F)) Wv (Proc.devRef .tc main_v66)
      = relMean (Wv (Proc.devRef .tc main_v5)) (Wv (Proc.devRef .tc main_arg6)) (Wv (Proc.devRef .tc main_arg7))
          (Wv (Proc.devRef .tc main_arg8)) (Wv (Proc.devRef .tc main_arg9)) (Wv (Proc.devRef .tc main_arg10))
          (Wv (Proc.devRef .tc main_arg11)) := by
  after_results_simp
  rfl

/-- gamma as a single row. -/
theorem after1_g (Wv : Valuation τ sig (Elt F)) (q : Fin 512) :
    StableHlo.after (hostOps1 (F := F)) Wv (Proc.devRef .tc main_v67) (ix2 (0 : Fin 1) q)
      = Wv (Proc.devRef .tc main_arg4) (ix1 q) := by
  after_results_simp
  exact shapeCast_apply _ _ _ _ (by
    show ((⟨1, ![512]⟩ : Shape).rowMajor (ix1 q)).val = ((⟨2, ![1, 512]⟩ : Shape).rowMajor (ix2 (0 : Fin 1) q)).val
    rw [Shape.rowMajor_val_one, Shape.rowMajor_val_two]
    show q.val = (0 : Fin 1).val * 512 + q.val
    simp)

/-- beta as a single row. -/
theorem after1_b (Wv : Valuation τ sig (Elt F)) (q : Fin 512) :
    StableHlo.after (hostOps1 (F := F)) Wv (Proc.devRef .tc main_v68) (ix2 (0 : Fin 1) q)
      = Wv (Proc.devRef .tc main_arg5) (ix1 q) := by
  after_results_simp
  exact shapeCast_apply _ _ _ _ (by
    show ((⟨1, ![512]⟩ : Shape).rowMajor (ix1 q)).val = ((⟨2, ![1, 512]⟩ : Shape).rowMajor (ix2 (0 : Fin 1) q)).val
    rw [Shape.rowMajor_val_one, Shape.rowMajor_val_two]
    show q.val = (0 : Fin 1).val * 512 + q.val
    simp)

/-! ## At the run's contents -/

variable (m : (ℓ : Loc nD τ sig) → Buf (Elt F) ℓ) (ρ : Dev nD → PrngReg)

theorem entry0_x (c : Dev nD) : V1 m ρ c main_arg0 = m ((c : Thread nD τ).loc main_arg0) :=
  after0_arg0 (W0 m ρ c)

theorem entry0_w (c : Dev nD) :
    V1 m ρ c main_v4 = wAvgT (m ((c : Thread nD τ).loc main_arg1)) (m ((c : Thread nD τ).loc main_arg2))
      (m ((c : Thread nD τ).loc main_arg3)) :=
  after0_w (W0 m ρ c)

/-- Past the first launch an argument that is none of its arrays still holds its launch contents. -/
theorem mid_arg4 (c : Dev nD) : W2 m ρ c (Proc.devRef .tc main_arg4) = m ((c : Thread nD τ).loc main_arg4) :=
  (W2_of_ne m ρ c main_arg4 (by decide)).trans (after0_arg4 (W0 m ρ c))
theorem mid_arg5 (c : Dev nD) : W2 m ρ c (Proc.devRef .tc main_arg5) = m ((c : Thread nD τ).loc main_arg5) :=
  (W2_of_ne m ρ c main_arg5 (by decide)).trans (after0_arg5 (W0 m ρ c))
theorem mid_arg6 (c : Dev nD) : W2 m ρ c (Proc.devRef .tc main_arg6) = m ((c : Thread nD τ).loc main_arg6) :=
  (W2_of_ne m ρ c main_arg6 (by decide)).trans (after0_arg6 (W0 m ρ c))
theorem mid_arg7 (c : Dev nD) : W2 m ρ c (Proc.devRef .tc main_arg7) = m ((c : Thread nD τ).loc main_arg7) :=
  (W2_of_ne m ρ c main_arg7 (by decide)).trans (after0_arg7 (W0 m ρ c))
theorem mid_arg8 (c : Dev nD) : W2 m ρ c (Proc.devRef .tc main_arg8) = m ((c : Thread nD τ).loc main_arg8) :=
  (W2_of_ne m ρ c main_arg8 (by decide)).trans (after0_arg8 (W0 m ρ c))
theorem mid_arg9 (c : Dev nD) : W2 m ρ c (Proc.devRef .tc main_arg9) = m ((c : Thread nD τ).loc main_arg9) :=
  (W2_of_ne m ρ c main_arg9 (by decide)).trans (after0_arg9 (W0 m ρ c))
theorem mid_arg10 (c : Dev nD) : W2 m ρ c (Proc.devRef .tc main_arg10) = m ((c : Thread nD τ).loc main_arg10) :=
  (W2_of_ne m ρ c main_arg10 (by decide)).trans (after0_arg10 (W0 m ρ c))
theorem mid_arg11 (c : Dev nD) : W2 m ρ c (Proc.devRef .tc main_arg11) = m ((c : Thread nD τ).loc main_arg11) :=
  (W2_of_ne m ρ c main_arg11 (by decide)).trans (after0_arg11 (W0 m ρ c))

theorem entry1_h (c : Dev nD) :
    V3 m ρ c main_v66 = relMean (W2 m ρ c (Proc.devRef .tc main_v5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)) := by
  rw [← mid_arg6 m ρ c, ← mid_arg7 m ρ c, ← mid_arg8 m ρ c, ← mid_arg9 m ρ c, ← mid_arg10 m ρ c, ← mid_arg11 m ρ c]
  exact after1_h (W2 m ρ c)

theorem entry1_g (c : Dev nD) (q : Fin 512) :
    V3 m ρ c main_v67 (ix2 (0 : Fin 1) q) = m ((c : Thread nD τ).loc main_arg4) (ix1 q) :=
  (after1_g (W2 m ρ c) q).trans (congrFun (mid_arg4 m ρ c) (ix1 q))

theorem entry1_b (c : Dev nD) (q : Fin 512) :
    V3 m ρ c main_v68 (ix2 (0 : Fin 1) q) = m ((c : Thread nD τ).loc main_arg5) (ix1 q) :=
  (after1_b (W2 m ρ c) q).trans (congrFun (mid_arg5 m ρ c) (ix1 q))

end Cert.Bridge.Host

end
-- ==== Proof.MatmulValue.lean ====
/-
  The first launch, read as a value: each of its 50 grid points loads 2000 rows of the left operand and the whole
  512 × 512 right operand and stores their product. At the exact reals the roundings to the narrower format are the
  identity and the product into a zero accumulator is the plain sum over the contracted axis, so block `t` of the
  result is block `t` of `matProd` of the operand arrays; the 50 blocks tile the result (row r is in block r / 2000).
-/
import proofs.«118880_j86715389706548_1_alg».proof.Proof.Gen.KernelIdeal.Frame
import proofs.«118880_j86715389706548_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Bridge.Matmul

open Cert.KernelIdeal Cert.KernelIdeal.Gen Cert.Bridge

/-- The product of a 100000 × 512 array with a 512 × 512 array: entry (n, j) is ∑ k, x[n,k] · w[k,j]. -/
def matProd (X : S100000x512.Idx → EReal) (W : S512x512.Idx → EReal) : S100000x512.Idx → EReal := fun i =>
  ∑ k : Fin 512, X (ix2 (i 0) k) * W (ix2 k (i 1))

/-- The offsets (0, 0) are the zero offsets. -/
theorem zero_offsets : (![0, 0] : Fin 2 → Nat) = fun _ => 0 := funext fun a => by fin_cases a <;> rfl

/-! ## The product's operand indices, axis by axis

For the contraction of axis 1 of the left operand with axis 0 of the right, the left operand is read at
(row of the output, contraction index) and the right at (contraction index, column of the output). -/

theorem lhs_axis0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_axis1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs_axis0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs_axis1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The body's payload at (p, q): the roundings are the identity on the extended reals, the cast to the same shape is
    the identity, and the product into the zero accumulator is the sum over the contracted axis. -/
theorem payload_apply (x0 : Vec Ideal S2000x512 .f32) (x1 : Vec Ideal S512x512 .f32) (p : Fin 2000) (q : Fin 512) :
    k0_pay1 (F := Ideal) x0 x1 (ix2 p q) = ∑ k : Fin 512, x0 (ix2 p k) * x1 (ix2 k q) := by
  unfold k0_pay1
  rw [shapeCast_self]
  refine (Ideal.matmul_constant_zero_apply dot_S2000x512_S512x512_S2000x512_1_0_0_1_n_n none _ _ (ix2 p q)).trans ?_
  rw [← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S2000x512_S512x512_S2000x512_1_0_0_1_n_n.rhsIdx (ix2 p q) ((contrEquiv1 dot_S2000x512_S512x512_S2000x512_1_0_0_1_n_n 512 rfl rfl).symm k) = ix2 k q := funext fun a => Fin.ext (by
    match a with
    | ⟨0, _⟩ => exact (rhs_axis0 _ _).trans hk
    | ⟨1, _⟩ => exact rhs_axis1 _ _)
  rw [truncf_apply, truncf_apply, el, er]

/-! ## From the blocks to the array -/

/-- The launch's block indices, decided over its 50 points: the left operand and the product are cut into row blocks
    that follow the point; the right operand is a single block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- If the left block holds the rows of `A` that `e0` names and the right block the entries of `B` that `e1` names,
    and these are row `i 0` of `A` and column `i 1` of `B`, then the payload at (p, q) is entry `i` of the product. -/
theorem block_value (A : S100000x512.Idx → EReal) (B : S512x512.Idx → EReal)
    (x0 : Vec Ideal S2000x512 .f32) (x1 : Vec Ideal S512x512 .f32)
    (e0 : S2000x512.Idx → S100000x512.Idx) (e1 : S512x512.Idx → S512x512.Idx)
    (h0 : ∀ y, x0 y = A (e0 y)) (h1 : ∀ y, x1 y = B (e1 y)) (p : Fin 2000) (q : Fin 512) (i : S100000x512.Idx)
    (hrow : ∀ k : Fin 512, e0 (ix2 p k) = ix2 (i 0) k) (hcol : ∀ k : Fin 512, e1 (ix2 k q) = ix2 k (i 1)) :
    k0_pay1 (F := Ideal) x0 x1 (ix2 p q) = matProd A B i := by
  rw [payload_apply]
  unfold matProd
  refine Finset.sum_congr rfl fun k _ => ?_
  rw [h0, h1, hrow, hcol]
  rfl

variable (V : (c : Dev nD) → (b : Ref sig .tc) → Buf (Elt Ideal) ((c : Thread nD τ).loc b))

/-- At point `t` the body's payload at `j` is the product's entry at the place of `j` in the array: the left block is
    rows 2000 t … 2000 t + 1999 of the left operand, the right block is the whole right operand. -/
theorem point_value (c : Dev nD) (t : Fin cfg0.N) (j : S2000x512.Idx) :
    k0_pay1 (F := Ideal) (iblk0 V c 0 t) (iblk0 V c 1 t) j
      = matProd (V c main_arg0) (V c main_v4) (((cfg0.win 2).blk t).view.emb j) := by
  obtain ⟨e00, e01, e10, e11, e20, e21⟩ := index_facts t
  obtain ⟨p, q, rfl⟩ : ∃ (p : Fin 2000) (q : Fin 512), j = ix2 p q := ⟨j 0, j 1, eq_ix2 j⟩
  refine block_value (V c main_arg0) (V c main_v4) (iblk0 V c 0 t) (iblk0 V c 1 t)
    (fun y => ((cfg0.win 0).blk t).view.emb y) (fun y => ((cfg0.win 1).blk t).view.emb y) (fun y => rfl) (fun y => rfl)
    p q (((cfg0.win 2).blk t).view.emb (ix2 p q)) ?_ ?_
  · intro k
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  · intro k
    funext a; apply Fin.ext
    match a with
    | ⟨0, _⟩ => show win0_1.index t (0 : Fin 2) * 512 + 1 * k.val = k.val; omega
    | ⟨1, _⟩ => show win0_1.index t (1 : Fin 2) * 512 + 1 * q.val = win0_2.index t (1 : Fin 2) * 512 + 1 * q.val; omega

/-- What point `t` writes back is block `t` of the product of the two operands as the launch finds them. -/
theorem flushed_eq (c : Dev nD) (t : Fin cfg0.N) :
    (dat0 (F := Ideal) V c).flushed 2 t
      = ((cfg0.win 2).blk t).view.read (Elt Ideal) (matProd (V c main_arg0) (V c main_v4)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x512) zero_offsets]
  funext j
  exact point_value V c t j

/-- An index of the product array is in point `t`'s block iff each coordinate is in the block's range on its axis. -/
theorem mem_blk (t : Fin cfg0.N) (i : S100000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v5).slice (win0_2.rect t)).set ↔ _
  rw [View.set_slice_whole, Rect.mem_set_unit]
  exact Iff.rfl

/-- Every index of the product array is in the block of the point its row belongs to: row r is in block r / 2000. -/
theorem cover (i : S100000x512.Idx) :
    ∃ t : Fin cfg0.N, (cfg0.win 2).flush t = true ∧ i ∈ ((cfg0.win 2).blk t).view.set := by
  have hi0 : (i 0).val < 100000 := (i 0).isLt
  have hi1 : (i 1).val < 512 := (i 1).isLt
  have hN : cfg0.N = 50 := N_0
  have hlt : (i 0).val / 2000 < cfg0.N := by rw [hN]; omega
  obtain ⟨-, -, -, -, e20, e21⟩ := index_facts ⟨(i 0).val / 2000, hlt⟩
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e20]
    show (i 0).val / 2000 * 2000 ≤ (i 0).val ∧ (i 0).val < (i 0).val / 2000 * 2000 + 2000
    omega
  | ⟨1, _⟩ =>
    show win0_2.index ⟨(i 0).val / 2000, hlt⟩ (1 : Fin 2) * 512 ≤ (i 1).val ∧ (i 1).val < win0_2.index ⟨(i 0).val / 2000, hlt⟩ (1 : Fin 2) * 512 + 512
    omega

/-- After the first launch the product array is the product of the arrays the launch found at its two operands. -/
theorem arr_matmul (V : (c : Dev nD) → (b : Ref sig .tc) → Buf (Elt Ideal) ((c : Thread nD τ).loc b)) (c : Dev nD) :
    (dat0 (F := Ideal) V c).arrAt 2 cfg0.N = matProd (V c main_arg0) (V c main_v4) :=
  (dat0 (F := Ideal) V c).arrAt_eq_of_cover 2 (matProd (V c main_arg0) (V c main_v4)) (fun t _ => flushed_eq V c t) cover

end Cert.Bridge.Matmul

end
-- ==== Proof.NormValue.lean ====
/-
  The second launch, read as a value: each of its 100 grid points loads 1000 whole rows of its first operand and the
  two single rows, and stores the rows normalised — max(·, 0), the row's mean and mean squared deviation over its 512
  entries, the deviation times rsqrt(variance + ε), times the scale row, plus the shift row. A row lies whole in one
  block, so a block row's sums are the array row's, and block `t` of the result is block `t` of `layerNorm` of the
  operand arrays; the 100 blocks tile the result array (row r is in block r / 1000).
-/
import proofs.«118880_j86715389706548_1_alg».proof.Proof.Gen.KernelIdeal.Frame
import proofs.«118880_j86715389706548_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Bridge.Norm

open Cert.KernelIdeal Cert.KernelIdeal.Gen Cert.Bridge

/-! ## Two keepdims layout operations read at an index -/

/-- An `[a]` array cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic, stage by stage, on one block -/

/-- The block with its negative entries replaced by zero. -/
def reluB (x0 : Vec Ideal S1000x512 .f32) : FVec Ideal S1000x512 .f32 :=
  maximumf (shapeCast S1000x512 x0 shapeCasts_S1000x512_S1000x512) (broadcast S1000x512 (Scalar.ofBits .f32 0x00000000#32))

theorem reluB_apply (x0 : Vec Ideal S1000x512 .f32) (i : S1000x512.Idx) : reluB x0 i = max (x0 i) zeroLit := by
  unfold reluB
  rw [shapeCast_self]
  rfl

/-- A lane sum over the block's second axis, read at row `p`: the sum of the row's 512 entries. -/
theorem rowSum_apply (src : FVec Ideal S1000x512 .f32) (hφ : FKind.Formats .f32)
    (hacc : (0x00000000#32 : BitVec 32) = 0x00000000#32) (p : Fin 1000) :
    multiReduction (F := Ideal) .add [1] S1000 src 0x00000000#32 reduces_S1000x512_S1000 hφ hacc (ix1 p)
      = ∑ k : Fin 512, src (ix2 p k) := by
  refine (Ideal.multiReduction_add_single src 0x00000000#32 reduces_S1000x512_S1000 hφ hacc (ix1 p)).trans ?_
  refine Finset.sum_congr rfl fun k _ => congrArg src ?_
  funext a
  match a with
  | ⟨0, _⟩ => rfl
  | ⟨1, _⟩ => rfl

/-- The column of row means of the block's `reluB`. -/
def meanB (x0 : Vec Ideal S1000x512 .f32) : FVec Ideal S1000x1 .f32 :=
  divf (shapeCast S1000x1 (multiReduction .add [1] S1000 (reluB x0) 0x00000000#32 reduces_S1000x512_S1000 (.inl rfl) rfl) shapeCasts_S1000_S1000x1)
    (broadcast S1000x1 (Scalar.ofBits .f32 0x44000000#32))

theorem meanB_apply (x0 : Vec Ideal S1000x512 .f32) (p : Fin 1000) (u : Fin 1) :
    meanB x0 (ix2 p u) = Ideal.div (∑ k : Fin 512, reluB x0 (ix2 p k)) rowLen := by
  unfold meanB
  rw [divf_apply, shapeCast_a_a1_apply, rowSum_apply]
  rfl

/-- The column of reciprocal square roots of (row variance + ε) of the block's `reluB`. -/
def rstdB (x0 : Vec Ideal S1000x512 .f32) : FVec Ideal S1000x1 .f32 :=
  rsqrt (addf
    (divf (shapeCast S1000x1 (multiReduction .add [1] S1000
        (mulf (subf (reluB x0) (broadcastTo S1000x512 (meanB x0) broadcasts_S1000x1_S1000x512))
          (subf (reluB x0) (broadcastTo S1000x512 (meanB x0) broadcasts_S1000x1_S1000x512)))
        0x00000000#32 reduces_S1000x512_S1000 (.inl rfl) rfl) shapeCasts_S1000_S1000x1)
      (broadcast S1000x1 (Scalar.ofBits .f32 0x44000000#32)))
    (broadcast S1000x1 (Scalar.ofBits .f32 0x3727C5AC#32)))

theorem rstdB_apply (x0 : Vec Ideal S1000x512 .f32) (p : Fin 1000) (u : Fin 1) :
    rstdB x0 (ix2 p u) = Ideal.rsqrt (Ideal.div (∑ k : Fin 512,
      (reluB x0 (ix2 p k) - meanB x0 (ix2 p 0)) * (reluB x0 (ix2 p k) - meanB x0 (ix2 p 0))) rowLen + epsLit) := by
  unfold rstdB
  show Ideal.rsqrt (Ideal.div (shapeCast S1000x1 _ shapeCasts_S1000_S1000x1 (ix2 p u)) rowLen + epsLit) = _
  rw [shapeCast_a_a1_apply, rowSum_apply]
  refine congrArg (fun s => Ideal.rsqrt (Ideal.div s rowLen + epsLit)) (Finset.sum_congr rfl fun k _ => ?_)
  rw [mulf_apply, subf_apply, broadcastTo_a1_ab_apply]

/-- The body's payload is that tree of stages. -/
theorem pay_eq (x0 : Vec Ideal S1000x512 .f32) (g b : Vec Ideal S1x512 .f32) :
    k1_pay1 (F := Ideal) x0 g b
      = addf (mulf (mulf (subf (reluB x0) (broadcastTo S1000x512 (meanB x0) broadcasts_S1000x1_S1000x512))
            (broadcastTo S1000x512 (rstdB x0) broadcasts_S1000x1_S1000x512))
          (broadcastTo S1000x512 (shapeCast S1x512 g shapeCasts_S1x512_S1x512) broadcasts_S1x512_S1000x512))
        (broadcastTo S1000x512 (shapeCast S1x512 b shapeCasts_S1x512_S1x512) broadcasts_S1x512_S1000x512) := rfl

/-- THE PAYLOAD AT AN INDEX: row `p` of the block normalised by its own mean and variance, scaled and shifted. -/
theorem pay_apply (x0 : Vec Ideal S1000x512 .f32) (g b : Vec Ideal S1x512 .f32) (p : Fin 1000) (q : Fin 512) :
    k1_pay1 (F := Ideal) x0 g b (ix2 p q)
      = ((reluB x0 (ix2 p q) - meanB x0 (ix2 p 0)) * rstdB x0 (ix2 p 0)) * g (ix2 0 q) + b (ix2 0 q) := by
  rw [pay_eq, addf_apply, mulf_apply, mulf_apply, subf_apply, broadcastTo_a1_ab_apply, broadcastTo_a1_ab_apply,
    broadcastTo_1b_ab_apply, broadcastTo_1b_ab_apply, shapeCast_self, shapeCast_self]

/-- On one row the payload is the specification's normalisation: if row `p` of the block is row `r` of an array `A`
    and the two single rows read `G`, `B` at `q`, the payload at `(p, q)` is `layerNorm A G B` at `(r, q)` (the whole
    row lies in the block, so the block row's sums are the array row's). -/
theorem pay_layerNorm (x0 : Vec Ideal S1000x512 .f32) (g b : Vec Ideal S1x512 .f32) (A : SN.Idx → EReal)
    (G B : Fin 512 → EReal) (p : Fin 1000) (q : Fin 512) (r : Fin 100000)
    (hx : ∀ k : Fin 512, x0 (ix2 p k) = A (ix2 r k)) (hg : g (ix2 0 q) = G q) (hb : b (ix2 0 q) = B q) :
    k1_pay1 (F := Ideal) x0 g b (ix2 p q) = layerNorm A G B (ix2 r q) := by
  have hrelu : ∀ k : Fin 512, reluB x0 (ix2 p k) = relu A (ix2 r k) := fun k => by rw [reluB_apply, hx]; rfl
  have hmean : meanB x0 (ix2 p 0) = rowMean (relu A) r := by
    rw [meanB_apply]; unfold rowMean; simp only [hrelu]
  have hrstd : rstdB x0 (ix2 p 0) = Ideal.rsqrt (rowVar (relu A) r + epsLit) := by
    rw [rstdB_apply]; unfold rowVar; simp only [hrelu, hmean]
  rw [pay_apply, hrelu, hmean, hrstd, hg, hb]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: point `t` reads and writes row block `t`, and the two single rows
    are read whole at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the first operand's block at point `t` is row `1000 t + p` of the array. -/
theorem iblk0_apply (c : Dev nD) (t : Fin cfg1.N) (p : Fin 1000) (k : Fin 512) (r : Fin 100000)
    (hr : r.val = t.val * 1000 + p.val) :
    (iblk1 (F := Ideal) V c 0 t : Vec Ideal S1000x512 .f32) (ix2 p k) = (V c main_v66 : SN.Idx → EReal) (ix2 r k) := by
  obtain ⟨e0, e1, -⟩ := idx_facts t
  unfold iblk1
  rw [View.read_apply]
  show (V c main_v66 : SN.Idx → EReal) _ = (V c main_v66 : SN.Idx → EReal) _
  congr 1
  funext a
  apply Fin.ext
  match a with
  | ⟨0, _⟩ => show win1_0.index t (0 : Fin 2) * 1000 + 1 * p.val = r.val; omega
  | ⟨1, _⟩ => show win1_0.index t (1 : Fin 2) * 512 + 1 * k.val = k.val; omega

/-- The second operand's block at any point is the whole single row. -/
theorem iblk1_apply (c : Dev nD) (t : Fin cfg1.N) (q : Fin 512) :
    (iblk1 (F := Ideal) V c 1 t : Vec Ideal S1x512 .f32) (ix2 0 q) = (V c main_v67 : S1x512.Idx → EReal) (ix2 0 q) := by
  obtain ⟨-, -, e2, e3, -⟩ := idx_facts t
  unfold iblk1
  rw [View.read_apply]
  show (V c main_v67 : S1x512.Idx → EReal) _ = (V c main_v67 : S1x512.Idx → EReal) _
  congr 1
  funext a
  apply Fin.ext
  match a with
  | ⟨0, _⟩ => show win1_1.index t (0 : Fin 2) * 1 + 1 * 0 = 0; omega
  | ⟨1, _⟩ => show win1_1.index t (1 : Fin 2) * 512 + 1 * q.val = q.val; omega

/-- The third operand's block at any point is the whole single row. -/
theorem iblk2_apply (c : Dev nD) (t : Fin cfg1.N) (q : Fin 512) :
    (iblk1 (F := Ideal) V c 2 t : Vec Ideal S1x512 .f32) (ix2 0 q) = (V c main_v68 : S1x512.Idx → EReal) (ix2 0 q) := by
  obtain ⟨-, -, -, -, e4, e5, -⟩ := idx_facts t
  unfold iblk1
  rw [View.read_apply]
  show (V c main_v68 : S1x512.Idx → EReal) _ = (V c main_v68 : S1x512.Idx → EReal) _
  congr 1
  funext a
  apply Fin.ext
  match a with
  | ⟨0, _⟩ => show win1_2.index t (0 : Fin 2) * 1 + 1 * 0 = 0; omega
  | ⟨1, _⟩ => show win1_2.index t (1 : Fin 2) * 512 + 1 * q.val = q.val; omega

/-- WHAT POINT `t` WRITES BACK is block `t` of the row-wise normalisation of the first operand's array. -/
theorem flushed_eq (c : Dev nD) (t : Fin cfg1.N) :
    (dat1 (F := Ideal) V c).flushed 3 t = ((cfg1.win 3).blk t).view.read (Elt Ideal)
      (layerNorm (V c main_v66) (fun q => V c main_v67 (ix2 0 q)) (fun q => V c main_v68 (ix2 0 q))) := by
  show (cfg1.win 3).cut (grid1.coords t) ((dat1 V c).after 3 t) = _
  rw [after1_3]
  unfold out1_3
  rw [View.canon_unit_zero hz]
  simp only [View.ld_unit_zero (S := S1000x512) hz, View.ld_unit_zero (S := S1x512) hz]
  obtain ⟨-, -, -, -, -, -, e6, e7⟩ := idx_facts t
  funext j
  obtain ⟨p, q, rfl⟩ : ∃ (p : Fin 1000) (q : Fin 512), (j : S1000x512.Idx) = ix2 p q := ⟨j 0, j 1, eq_ix2 (n0 := 1000) (n1 := 512) j⟩
  have hN : cfg1.N = 100 := N_1
  have hr : t.val * 1000 + p.val < 100000 := by have := t.isLt; have := p.isLt; omega
  show k1_pay1 (F := Ideal) (iblk1 V c 0 t) (iblk1 V c 1 t) (iblk1 V c 2 t) (ix2 p q)
    = layerNorm (V c main_v66) (fun q => V c main_v67 (ix2 0 q)) (fun q => V c main_v68 (ix2 0 q)) (((cfg1.win 3).blk t).view.emb (ix2 p q))
  have hemb : ((cfg1.win 3).blk t).view.emb (ix2 p q) = (ix2 (⟨t.val * 1000 + p.val, hr⟩ : Fin 100000) q : SN.Idx) := by
    funext a
    apply Fin.ext
    match a with
    | ⟨0, _⟩ => show win1_3.index t (0 : Fin 2) * 1000 + 1 * p.val = t.val * 1000 + p.val; omega
    | ⟨1, _⟩ => show win1_3.index t (1 : Fin 2) * 512 + 1 * q.val = q.val; omega
  rw [hemb]
  exact pay_layerNorm (iblk1 (F := Ideal) V c 0 t) (iblk1 (F := Ideal) V c 1 t) (iblk1 (F := Ideal) V c 2 t) (V c main_v66)
    (fun q => V c main_v67 (ix2 0 q)) (fun q => V c main_v68 (ix2 0 q)) p q ⟨t.val * 1000 + p.val, hr⟩
    (fun k => iblk0_apply V c t p k ⟨t.val * 1000 + p.val, hr⟩ rfl) (iblk1_apply V c t q) (iblk2_apply V c t q)

/-- An index of the result array is in point `t`'s block iff each coordinate is in the block's range on its axis. -/
theorem mem_blk (t : Fin cfg1.N) (i : S100000x512.Idx) :
    i ∈ ((cfg1.win 3).blk t).view.set ↔ ∀ a : Fin 2, win1_3.index t a * S1000x512.size a ≤ (i a).val
      ∧ (i a).val < win1_3.index t a * S1000x512.size a + S1000x512.size a := by
  show i ∈ ((View.whole main_v69).slice (win1_3.rect t)).set ↔ _
  rw [View.set_slice_whole, Rect.mem_set_unit]
  exact Iff.rfl

/-- Every index of the result array is in the block of the point its row falls in: row `r` in point `r / 1000`'s. -/
theorem covered (i : S100000x512.Idx) :
    ∃ t : Fin cfg1.N, (cfg1.win 3).flush t = true ∧ i ∈ ((cfg1.win 3).blk t).view.set := by
  have hN : cfg1.N = 100 := N_1
  have hi0 : (i 0).val < 100000 := (i 0).isLt
  have hi1 : (i 1).val < 512 := (i 1).isLt
  have ht : (i 0).val / 1000 < cfg1.N := by rw [hN]; omega
  obtain ⟨-, -, -, -, -, -, e6, e7⟩ := idx_facts ⟨(i 0).val / 1000, ht⟩
  refine ⟨⟨(i 0).val / 1000, ht⟩, flush1_3 _, ?_⟩
  rw [mem_blk]
  intro a
  match a with
  | ⟨0, _⟩ =>
    show win1_3.index ⟨(i 0).val / 1000, ht⟩ (0 : Fin 2) * 1000 ≤ (i 0).val
      ∧ (i 0).val < win1_3.index ⟨(i 0).val / 1000, ht⟩ (0 : Fin 2) * 1000 + 1000
    rw [e6]; show (i 0).val / 1000 * 1000 ≤ (i 0).val ∧ (i 0).val < (i 0).val / 1000 * 1000 + 1000; omega
  | ⟨1, _⟩ =>
    show win1_3.index ⟨(i 0).val / 1000, ht⟩ (1 : Fin 2) * 512 ≤ (i 1).val
      ∧ (i 1).val < win1_3.index ⟨(i 0).val / 1000, ht⟩ (1 : Fin 2) * 512 + 512
    rw [e7]; omega

/-- After the second launch the result array is the row-wise normalisation of the array the launch found at its first
    operand, scaled and shifted by the single rows found at its second and third. -/
theorem arr_norm (V : (c : Dev nD) → (b : Ref sig .tc) → Buf (Elt Ideal) ((c : Thread nD τ).loc b)) (c : Dev nD) :
    (dat1 (F := Ideal) V c).arrAt 3 cfg1.N
      = layerNorm (V c main_v66) (fun q => V c main_v67 (ix2 0 q)) (fun q => V c main_v68 (ix2 0 q)) := by
  exact (dat1 (F := Ideal) V c).arrAt_eq_of_cover 3
    (layerNorm (V c main_v66) (fun q => V c main_v67 (ix2 0 q)) (fun q => V c main_v68 (ix2 0 q)))
    (fun t _ => flushed_eq V c t) (fun i => covered i)

end Cert.Bridge.Norm

end
-- ==== Proof.KernelValue.lean ====
/-
  The kernel program's result as one function of its arguments, at the exact reals.

  The first launch leaves, at (n, j), ∑ k x[n,k] · w[k,j] with w the averaged, transposed weights; entry (k, j) of w is
  ((W0[j,k] + W1[j,k]) + W2[j,k]) / 3, so that array is the fused hidden state. The host operations between the
  launches apply the relations' mean aggregation to it, and the second launch normalises the rows of the outcome with
  gamma and beta read from single-row copies.
-/
import proofs.«118880_j86715389706548_1_alg».proof.Proof.HostK
import proofs.«118880_j86715389706548_1_alg».proof.Proof.MatmulValue
import proofs.«118880_j86715389706548_1_alg».proof.Proof.NormValue

set_option maxRecDepth 16384

noncomputable section

open scoped BigOperators

namespace Cert.Bridge.Kernel

open Cert.KernelIdeal Cert.KernelIdeal.Gen Cert.Bridge
open Idealize.ShloMosaic Idealize.ShloMosaic.TcCoe Idealize.SL.Sem
open Idealize.ShloMosaic.ValueIdx
open Cert.KernelIdeal.Facts₀ Cert.KernelIdeal.Facts

/-- Entry (k, j) of the averaged, transposed weights. -/
theorem wAvgT_apply (A B C : FVec Ideal S512x512 .f32) (k j : Fin 512) :
    wAvgT (F := Ideal) A B C (ix2 k j) = Ideal.div ((A (ix2 j k) + B (ix2 j k)) + C (ix2 j k)) three := by
  unfold wAvgT
  rw [transpose_apply [1, 0] _ _ (ix2 k j) (ix2 j k) (by intro b; match b with | ⟨0, _⟩ => rfl | ⟨1, _⟩ => rfl)]
  rfl

/-- The product against the averaged, transposed weights is the fused hidden state. -/
theorem matProd_wAvgT (X : S100000x512.Idx → EReal) (A B C : FVec Ideal S512x512 .f32) :
    Matmul.matProd X (wAvgT (F := Ideal) A B C) = hidFused X A B C := by
  funext i
  unfold Matmul.matProd hidFused
  exact Finset.sum_congr rfl fun k _ =>
    congrArg (fun z : EReal => X (ix2 (i 0) k) * z) (wAvgT_apply A B C k (i 1))

variable (m : (ℓ : Loc nD τ sig) → Buf (Elt Ideal) ℓ) (ρ : Dev nD → PrngReg)

/-- What the first launch leaves in its result array: the fused hidden state of the arguments. -/
theorem hidden_eq (c : Dev nD) :
    W2 m ρ c (Proc.devRef .tc main_v5)
      = hidFused (m ((c : Thread nD τ).loc main_arg0)) (m ((c : Thread nD τ).loc main_arg1))
          (m ((c : Thread nD τ).loc main_arg2)) (m ((c : Thread nD τ).loc main_arg3)) := by
  refine ((W2_arr m ρ c 2).trans (Matmul.arr_matmul (V1 m ρ) c)).trans ?_
  rw [Host.entry0_x m ρ c, Host.entry0_w m ρ c]
  exact matProd_wAvgT _ _ _ _

/-- The result array after the run. -/
theorem kernel_result (c : Dev nD) :
    W4 m ρ c (Proc.devRef .tc main_v69)
      = layerNorm
          (relMean (F := Ideal)
            (hidFused (m ((c : Thread nD τ).loc main_arg0)) (m ((c : Thread nD τ).loc main_arg1))
              (m ((c : Thread nD τ).loc main_arg2)) (m ((c : Thread nD τ).loc main_arg3)))
            (m ((c : Thread nD τ).loc main_arg6)) (m ((c : Thread nD τ).loc main_arg7))
            (m ((c : Thread nD τ).loc main_arg8)) (m ((c : Thread nD τ).loc main_arg9))
            (m ((c : Thread nD τ).loc main_arg10)) (m ((c : Thread nD τ).loc main_arg11)))
          (fun q => m ((c : Thread nD τ).loc main_arg4) (ix1 q))
          (fun q => m ((c : Thread nD τ).loc main_arg5) (ix1 q)) := by
  refine ((W4_arr m ρ c 3).trans (Norm.arr_norm (V3 m ρ) c)).trans ?_
  have eg : (fun q : Fin 512 => V3 m ρ c main_v67 (ix2 (0 : Fin 1) q))
      = fun q => m ((c : Thread nD τ).loc main_arg4) (ix1 q) := funext (Host.entry1_g m ρ c)
  have eb : (fun q : Fin 512 => V3 m ρ c main_v68 (ix2 (0 : Fin 1) q))
      = fun q => m ((c : Thread nD τ).loc main_arg5) (ix1 q) := funext (Host.entry1_b m ρ c)
  rw [eg, eb, Host.entry1_h m ρ c, hidden_eq m ρ c]

end Cert.Bridge.Kernel

end
-- ==== Proof.RefValue.lean ====
/-
  The reference program's result as one function of its arguments, read one operation at a time.

  Three stretches: the hidden state (three products against the transposed weights, added, divided by 3:
  `hidSplit`); the relations' mean aggregations of it, added and divided by 3 (the operations `relMean` names, matched
  by unfolding, never read at an index); and ReLU followed by the row-wise normalisation (row sums as the initial value
  0 plus a sum over the 512 features, divisions by the literal 512, `rsqrt` of the variance plus ε, scale and shift
  read along the feature axis: `layerNorm`).
-/
import proofs.«118880_j86715389706548_1_alg».proof.Proof.Gen.ReferenceIdeal.Run
import proofs.«118880_j86715389706548_1_alg».proof.Proof.Gen.ReferenceIdeal.Read
import proofs.«118880_j86715389706548_1_alg».proof.Proof.Chain
import proofs.«118880_j86715389706548_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.Bridge.Ref

open Cert.ReferenceIdeal Cert.Bridge

open Cert.ReferenceIdeal.Read

/-! ## The hidden state -/

/-- The left index of each product: row `i 0`, column `k`. -/
theorem lidx_eq (i : S100000x512.Idx) (k : Fin 512) : lidx_main_v1 i k = ix2 (i 0) k :=
  funext fun a => by match a with | ⟨0, _⟩ => rfl | ⟨1, _⟩ => rfl

/-- The right index of each product, read through the transpose: row `i 1`, column `k` of the weight array. -/
theorem ridx_eq (i : S100000x512.Idx) (k : Fin 512) : idx_main_v0 (ridx_main_v1 i k) = ix2 (i 1) k :=
  funext fun a => by match a with | ⟨0, _⟩ => rfl | ⟨1, _⟩ => rfl

/-- The reference's hidden state is the three products `∑ k, x[n,k] · Wr[j,k]`, added and divided by 3. -/
theorem hid_eq (x0 : (⟨S100000x512, .f32⟩ : BufTy).Contents (Elt Ideal)) (x1 x2 x3 : (⟨S512x512, .f32⟩ : BufTy).Contents (Elt Ideal)) :
    val_main_v9 (F := Ideal) x0 x1 x2 x3 = hidSplit x0 x1 x2 x3 := by
  funext i
  rw [val_main_v9_apply, val_main_v8_apply, val_main_cst_apply, val_main_v7_apply, val_main_v4_apply,
    val_main_v1_apply, val_main_v3_apply, val_main_v6_apply]
  simp only [val_main_v0_apply, val_main_v2_apply, val_main_v5_apply]
  simp only [show ∀ k, lidx_main_v3 i k = ix2 (i 0) k from lidx_eq i, show ∀ k, lidx_main_v6 i k = ix2 (i 0) k from lidx_eq i,
    lidx_eq, show ∀ k, idx_main_v2 (ridx_main_v3 i k) = ix2 (i 1) k from ridx_eq i,
    show ∀ k, idx_main_v5 (ridx_main_v6 i k) = ix2 (i 1) k from ridx_eq i, ridx_eq]
  rfl

/-! ## The aggregation -/

/-- The stages after the hidden state up to the averaged aggregation are the three relations' mean aggregations of the
    hidden state, added and divided by 3: the same operations, on the same literal shapes, that `relMean` names. -/
theorem agg_eq {F : FTy → Type} [FloatOps F]
    (x0 : (⟨S100000x512, .f32⟩ : BufTy).Contents (Elt F)) (x1 x2 x3 : (⟨S512x512, .f32⟩ : BufTy).Contents (Elt F))
    (x6 x7 x8 x9 x10 x11 : (⟨S200000, .i32⟩ : BufTy).Contents (Elt F)) :
    val_main_v70 (F := F) x0 x1 x2 x3 x6 x7 x8 x9 x10 x11
      = relMean (F := F) (val_main_v9 (F := F) x0 x1 x2 x3) x6 x7 x8 x9 x10 x11 := by
  unfold
    val_main_v70 val_main_v69 val_main_cst_17 val_main_v68 val_main_v67 val_main_v66 val_main_v65 val_main_v64
    val_main_v63 val_main_v62 val_main_cst_16 val_main_v61 val_main_v60 val_main_v59 val_main_cst_15 val_main_v58
    val_main_cst_14 val_main_v57 val_main_v56 val_main_v55 val_main_cst_13 val_main_v54 val_main_v53 val_main_v52
    val_main_v51 val_main_v50 val_main_c_12 val_main_v49 val_main_v48 val_main_c_11 val_main_v47 val_main_v46
    val_main_v45 val_main_v44 val_main_v43 val_main_cst_10 val_main_v42 val_main_v41 val_main_v40 val_main_cst_9
    val_main_v39 val_main_cst_8 val_main_v38 val_main_v37 val_main_v36 val_main_cst_7 val_main_v35 val_main_v34
    val_main_v33 val_main_v32 val_main_v31 val_main_c_6 val_main_v30 val_main_v29 val_main_c_5 val_main_v28
    val_main_v27 val_main_v26 val_main_v25 val_main_v24 val_main_cst_4 val_main_v23 val_main_v22 val_main_v21
    val_main_cst_3 val_main_v20 val_main_cst_2 val_main_v19 val_main_v18 val_main_v17 val_main_cst_1 val_main_v16
    val_main_v15 val_main_v14 val_main_v13 val_main_v12 val_main_c_0 val_main_v11 val_main_v10 val_main_c
  generalize val_main_v9 (F := F) x0 x1 x2 x3 = h
  unfold relMean segMean
  rfl

/-! ## The normalisation -/

/-- A row index paired with a column: the index the row sums read. -/
theorem row_idx_eq (j : S100000.Idx) (k : Fin 512) : idx_main_v72 j k = ix2 (j 0) k :=
  funext fun a => by match a with | ⟨0, _⟩ => rfl | ⟨1, _⟩ => rfl

/-- The feature axis's index of `gamma` and `beta`: the column. -/
theorem col_idx_eq (i : S100000x512.Idx) : idx_main_v90 (idx_main_v91 i) = ix1 (i 1) :=
  funext fun a => by match a with | ⟨0, _⟩ => rfl

/-- max(·, 0) of the aggregation. -/
theorem relu_stage (x0 : (⟨S100000x512, .f32⟩ : BufTy).Contents (Elt Ideal)) (x1 x2 x3 : (⟨S512x512, .f32⟩ : BufTy).Contents (Elt Ideal))
    (x6 x7 x8 x9 x10 x11 : (⟨S200000, .i32⟩ : BufTy).Contents (Elt Ideal)) (i : S100000x512.Idx) :
    val_main_v71 (F := Ideal) x0 x1 x2 x3 x6 x7 x8 x9 x10 x11 i = relu (val_main_v70 (F := Ideal) x0 x1 x2 x3 x6 x7 x8 x9 x10 x11) i := by
  rw [val_main_v71_apply, val_main_call0_v0_apply, val_main_call0_cst_apply]
  generalize val_main_v70 (F := Ideal) x0 x1 x2 x3 x6 x7 x8 x9 x10 x11 = H
  rfl

/-- The sum of a row of max(·, 0): the initial value is the literal 0. -/
theorem rowsum_stage (x0 : (⟨S100000x512, .f32⟩ : BufTy).Contents (Elt Ideal)) (x1 x2 x3 : (⟨S512x512, .f32⟩ : BufTy).Contents (Elt Ideal))
    (x6 x7 x8 x9 x10 x11 : (⟨S200000, .i32⟩ : BufTy).Contents (Elt Ideal)) (j : S100000.Idx) :
    val_main_v72 (F := Ideal) x0 x1 x2 x3 x6 x7 x8 x9 x10 x11 j = ∑ q : Fin 512, relu (val_main_v70 (F := Ideal) x0 x1 x2 x3 x6 x7 x8 x9 x10 x11) (ix2 (j 0) q) := by
  rw [val_main_v72_apply, val_main_cst_18_apply]
  simp only [relu_stage]
  simp only [row_idx_eq]
  generalize val_main_v70 (F := Ideal) x0 x1 x2 x3 x6 x7 x8 x9 x10 x11 = H
  rw [Ideal.ofBits_def, Ideal.ofBits_zero_f32, zero_add]
  rfl

/-- The mean of a row. -/
theorem mean_stage (x0 : (⟨S100000x512, .f32⟩ : BufTy).Contents (Elt Ideal)) (x1 x2 x3 : (⟨S512x512, .f32⟩ : BufTy).Contents (Elt Ideal))
    (x6 x7 x8 x9 x10 x11 : (⟨S200000, .i32⟩ : BufTy).Contents (Elt Ideal)) (j : S100000x1.Idx) :
    val_main_v75 (F := Ideal) x0 x1 x2 x3 x6 x7 x8 x9 x10 x11 j = rowMean (relu (val_main_v70 (F := Ideal) x0 x1 x2 x3 x6 x7 x8 x9 x10 x11)) (j 0) := by
  rw [val_main_v75_apply, val_main_v73_apply, val_main_v74_apply, val_main_cst_19_apply, rowsum_stage]
  generalize val_main_v70 (F := Ideal) x0 x1 x2 x3 x6 x7 x8 x9 x10 x11 = H
  rfl

/-- The deviation from the row's mean (the operand of the square). -/
theorem dev_stage (x0 : (⟨S100000x512, .f32⟩ : BufTy).Contents (Elt Ideal)) (x1 x2 x3 : (⟨S512x512, .f32⟩ : BufTy).Contents (Elt Ideal))
    (x6 x7 x8 x9 x10 x11 : (⟨S200000, .i32⟩ : BufTy).Contents (Elt Ideal)) (i : S100000x512.Idx) :
    val_main_v77 (F := Ideal) x0 x1 x2 x3 x6 x7 x8 x9 x10 x11 i
      = relu (val_main_v70 (F := Ideal) x0 x1 x2 x3 x6 x7 x8 x9 x10 x11) i - rowMean (relu (val_main_v70 (F := Ideal) x0 x1 x2 x3 x6 x7 x8 x9 x10 x11)) (i 0) := by
  rw [val_main_v77_apply, val_main_v76_apply, mean_stage, relu_stage]
  generalize val_main_v70 (F := Ideal) x0 x1 x2 x3 x6 x7 x8 x9 x10 x11 = H
  rfl

/-- The deviation from the row's mean (the operand of the scaling). -/
theorem dev_stage' (x0 : (⟨S100000x512, .f32⟩ : BufTy).Contents (Elt Ideal)) (x1 x2 x3 : (⟨S512x512, .f32⟩ : BufTy).Contents (Elt Ideal))
    (x6 x7 x8 x9 x10 x11 : (⟨S200000, .i32⟩ : BufTy).Contents (Elt Ideal)) (i : S100000x512.Idx) :
    val_main_v84 (F := Ideal) x0 x1 x2 x3 x6 x7 x8 x9 x10 x11 i
      = relu (val_main_v70 (F := Ideal) x0 x1 x2 x3 x6 x7 x8 x9 x10 x11) i - rowMean (relu (val_main_v70 (F := Ideal) x0 x1 x2 x3 x6 x7 x8 x9 x10 x11)) (i 0) := by
  rw [val_main_v84_apply, val_main_v83_apply, mean_stage, relu_stage]
  generalize val_main_v70 (F := Ideal) x0 x1 x2 x3 x6 x7 x8 x9 x10 x11 = H
  rfl

/-- The sum of the squared deviations of a row: the initial value is the literal 0. -/
theorem sqsum_stage (x0 : (⟨S100000x512, .f32⟩ : BufTy).Contents (Elt Ideal)) (x1 x2 x3 : (⟨S512x512, .f32⟩ : BufTy).Contents (Elt Ideal))
    (x6 x7 x8 x9 x10 x11 : (⟨S200000, .i32⟩ : BufTy).Contents (Elt Ideal)) (j : S100000.Idx) :
    val_main_v79 (F := Ideal) x0 x1 x2 x3 x6 x7 x8 x9 x10 x11 j
      = ∑ q : Fin 512, (relu (val_main_v70 (F := Ideal) x0 x1 x2 x3 x6 x7 x8 x9 x10 x11) (ix2 (j 0) q) - rowMean (relu (val_main_v70 (F := Ideal) x0 x1 x2 x3 x6 x7 x8 x9 x10 x11)) (j 0))
          * (relu (val_main_v70 (F := Ideal) x0 x1 x2 x3 x6 x7 x8 x9 x10 x11) (ix2 (j 0) q) - rowMean (relu (val_main_v70 (F := Ideal) x0 x1 x2 x3 x6 x7 x8 x9 x10 x11)) (j 0)) := by
  rw [val_main_v79_apply, val_main_cst_20_apply]
  simp only [val_main_v78_apply, dev_stage]
  simp only [show ∀ k, idx_main_v79 j k = ix2 (j 0) k from row_idx_eq j]
  generalize val_main_v70 (F := Ideal) x0 x1 x2 x3 x6 x7 x8 x9 x10 x11 = H
  rw [Ideal.ofBits_def, Ideal.ofBits_zero_f32, zero_add]
  rfl

/-- The variance of a row. -/
theorem var_stage (x0 : (⟨S100000x512, .f32⟩ : BufTy).Contents (Elt Ideal)) (x1 x2 x3 : (⟨S512x512, .f32⟩ : BufTy).Contents (Elt Ideal))
    (x6 x7 x8 x9 x10 x11 : (⟨S200000, .i32⟩ : BufTy).Contents (Elt Ideal)) (j : S100000x1.Idx) :
    val_main_v82 (F := Ideal) x0 x1 x2 x3 x6 x7 x8 x9 x10 x11 j = rowVar (relu (val_main_v70 (F := Ideal) x0 x1 x2 x3 x6 x7 x8 x9 x10 x11)) (j 0) := by
  rw [val_main_v82_apply, val_main_v80_apply, val_main_v81_apply, val_main_cst_21_apply, sqsum_stage]
  generalize val_main_v70 (F := Ideal) x0 x1 x2 x3 x6 x7 x8 x9 x10 x11 = H
  rfl

/-- The reference's result is the row-wise normalisation of the aggregation, scaled and shifted along the features. -/
theorem norm_eq (x0 : (⟨S100000x512, .f32⟩ : BufTy).Contents (Elt Ideal)) (x1 x2 x3 : (⟨S512x512, .f32⟩ : BufTy).Contents (Elt Ideal))
    (x6 x7 x8 x9 x10 x11 : (⟨S200000, .i32⟩ : BufTy).Contents (Elt Ideal))
    (x4 x5 : (⟨S512, .f32⟩ : BufTy).Contents (Elt Ideal)) :
    val_main_v95 (F := Ideal) x0 x1 x2 x3 x4 x5 x6 x7 x8 x9 x10 x11
      = layerNorm (val_main_v70 (F := Ideal) x0 x1 x2 x3 x6 x7 x8 x9 x10 x11) (fun q => x4 (ix1 q)) (fun q => x5 (ix1 q)) := by
  funext i
  rw [val_main_v95_apply, val_main_v94_apply, val_main_v93_apply, val_main_v92_apply, val_main_v91_apply, val_main_v90_apply,
    val_main_v89_apply, val_main_v88_apply, val_main_v87_apply, val_main_v86_apply, val_main_v85_apply, val_main_cst_22_apply,
    var_stage, dev_stage', col_idx_eq, show idx_main_v93 (idx_main_v94 i) = ix1 (i 1) from col_idx_eq i]
  generalize val_main_v70 (F := Ideal) x0 x1 x2 x3 x6 x7 x8 x9 x10 x11 = H
  rfl

/-- The reference's result, as a function of its arguments: the normalisation of the three relations' averaged mean
    aggregations of the hidden state (the three products averaged after), scaled by gamma and shifted by beta. -/
theorem ref_result (m : (ℓ : Loc nD τ sig) → Buf (Elt Ideal) ℓ) (c : Dev nD) :
    Cert.ReferenceIdeal.Value.res_main_v95 (F := Ideal) m c
      = layerNorm
          (relMean (F := Ideal)
            (hidSplit (m ((c.tc : Thread nD τ).loc main_arg0)) (m ((c.tc : Thread nD τ).loc main_arg1))
              (m ((c.tc : Thread nD τ).loc main_arg2)) (m ((c.tc : Thread nD τ).loc main_arg3)))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11)))
          (fun q => m ((c.tc : Thread nD τ).loc main_arg4) (ix1 q))
          (fun q => m ((c.tc : Thread nD τ).loc main_arg5) (ix1 q)) := by
  rw [val_main_v95_eq, norm_eq, agg_eq, hid_eq]

end Cert.Bridge.Ref

end
-- ==== Proof.Finite.lean ====
/-
  The precondition read back: it says, array by array, that every entry's absolute value is strictly below +∞, and an
  extended real with that property is a real number. Used for the feature array and the three weight arrays, the
  entries whose products distributivity is applied to.
-/
import proofs.«118880_j86715389706548_1_alg».proof.Pre_finite_inputs
import proofs.«118880_j86715389706548_1_alg».proof.Proof.Gen.Pre_finite_inputs
import Idealize.ShloMosaic.PureOps.Ideal
import Idealize.ShloMosaic.Lib.ReduceAll
import Idealize.ShloMosaic.Lib.ValueIdx

noncomputable section

open Idealize.ShloMosaic Idealize.ShloMosaic.ValueIdx

namespace Cert.Bridge.Finite

open Cert.Pre_finite_inputs

/-- The rank-0 shape has exactly one index. -/
instance : Subsingleton S_.Idx := ⟨fun a b => funext fun d => d.elim0⟩

/-- The word 0x7F800000 denotes +∞. -/
theorem inf_eq_top : Ideal.ofBits .f32 0x7F800000#32 = (⊤ : EReal) := by
  simp [Ideal.ofBits, Ideal.ieee]

/-- An extended real whose absolute value max(a, -a) is strictly below +∞ is a real number: at a = +∞ the maximum is
    +∞, at a = -∞ it is -(-∞) = +∞, and +∞ < +∞ is false. -/
theorem real_of_abs_lt (a : EReal)
    (h : Ideal.cmp .olt (max a (-a)) (Ideal.ofBits .f32 0x7F800000#32) = 1#1) : ∃ r : ℝ, a = (r : EReal) := by
  rw [inf_eq_top] at h
  induction a using EReal.rec with
  | bot => simp [Ideal.cmp] at h
  | top => simp [Ideal.cmp] at h
  | coe r => exact ⟨r, rfl⟩

/-- Where the precondition holds, every entry of the feature array and of the three weight arrays is a real number. -/
theorem real_of_pre (x : FVec Ideal S100000x512 .f32) (W0 W1 W2 : FVec Ideal S512x512 .f32) (g b : FVec Ideal S512 .f32)
    (s0 d0 s1 d1 s2 d2 : IVec S200000 32)
    (h : Cert.Pre_finite_inputs.fn (F := Ideal) x W0 W1 W2 g b s0 d0 s1 d1 s2 d2 = fun _ => 1#1) :
    (∀ i, ∃ r : ℝ, x i = (r : EReal)) ∧ (∀ i, ∃ r : ℝ, W0 i = (r : EReal))
      ∧ (∀ i, ∃ r : ℝ, W1 i = (r : EReal)) ∧ (∀ i, ∃ r : ℝ, W2 i = (r : EReal)) := by
  -- the predicate is a conjunction of six "all entries satisfy |entry| < +∞"; read it at the one index of its result
  have h0 := congrFun h ValueIdx.ix0
  dsimp only [fn, fn_part1] at h0
  -- peel the conjuncts from the outside in: b, g, W2, W1, then W0 and x
  obtain ⟨h1, -⟩ := IntOp.andi_eq_one.1 h0
  obtain ⟨h2, -⟩ := IntOp.andi_eq_one.1 h1
  obtain ⟨h3, hW2⟩ := IntOp.andi_eq_one.1 h2
  obtain ⟨h4, hW1⟩ := IntOp.andi_eq_one.1 h3
  obtain ⟨hx, hW0⟩ := IntOp.andi_eq_one.1 h4
  -- each conjunct gives the strict comparison at every entry, and the comparison makes the entry real
  exact ⟨fun i => real_of_abs_lt (x i) (Host.reduce_andi_all _ _ _ _ _ hx i),
    fun i => real_of_abs_lt (W0 i) (Host.reduce_andi_all _ _ _ _ _ hW0 i),
    fun i => real_of_abs_lt (W1 i) (Host.reduce_andi_all _ _ _ _ _ hW1 i),
    fun i => real_of_abs_lt (W2 i) (Host.reduce_andi_all _ _ _ _ _ hW2 i)⟩

end Cert.Bridge.Finite

end
-- ==== Proof.lean ====
/-
  A relational graph layer over 100000 nodes: per relation a linear map of the node features, averaged over the three
  relations; per relation a mean aggregation of that hidden state over 200000 edges, averaged over the relations; then
  ReLU and a row-wise layer normalisation with scale gamma and shift beta.

  The kernel's program forms the hidden state in ONE product against the averaged weights,
  `h[n,j] = ∑ k x[n,k] · ((W0[j,k] + W1[j,k] + W2[j,k]) / 3)`, where the reference forms three products, adds them and
  divides by 3. Over real entries these agree by distributivity (Proof/Spec.lean `hidFused_eq_hidSplit`); the
  precondition gives exactly that every entry of x and of the weights is real (Proof/Finite.lean). Both programs then
  apply the SAME gather / scatter-add / divide operations to the hidden state (`relMean`, never opened), and the same
  normalisation, which the kernel's program does in a second launch over blocks of 1000 whole rows and the reference
  on the whole array (`layerNorm`).

  Kernel side: the product array after the first launch (Proof/MatmulValue.lean), the host operations around the
  launches (Proof/HostK.lean), the normalised array after the second launch (Proof/NormValue.lean), composed in
  Proof/KernelValue.lean over the run of Proof/KernelRun.lean. Reference side: Proof/RefValue.lean.
-/
import proofs.«118880_j86715389706548_1_alg».proof.Defs
import proofs.«118880_j86715389706548_1_alg».proof.Proof.Gen.Kernel
import proofs.«118880_j86715389706548_1_alg».proof.Proof.Gen.Kernel.Skeleton
import proofs.«118880_j86715389706548_1_alg».proof.Proof.Gen.Kernel.Launch
import proofs.«118880_j86715389706548_1_alg».proof.Proof.Gen.Kernel.Points
import proofs.«118880_j86715389706548_1_alg».proof.Proof.Gen.Kernel.Frame
import proofs.«118880_j86715389706548_1_alg».proof.Proof.Gen.KernelIdeal
import proofs.«118880_j86715389706548_1_alg».proof.Proof.Gen.KernelIdeal.Skeleton
import proofs.«118880_j86715389706548_1_alg».proof.Proof.Gen.KernelIdeal.Launch
import proofs.«118880_j86715389706548_1_alg».proof.Proof.Gen.KernelIdeal.Points
import proofs.«118880_j86715389706548_1_alg».proof.Proof.Gen.KernelIdeal.Frame
import proofs.«118880_j86715389706548_1_alg».proof.Proof.Gen.ReferenceIdeal
import proofs.«118880_j86715389706548_1_alg».proof.Proof.Gen.ReferenceIdeal.Run
import proofs.«118880_j86715389706548_1_alg».proof.Proof.Gen.Pre_finite_inputs
import proofs.«118880_j86715389706548_1_alg».proof.Proof.KernelRun
import proofs.«118880_j86715389706548_1_alg».proof.Proof.KernelValue
import proofs.«118880_j86715389706548_1_alg».proof.Proof.RefValue
import proofs.«118880_j86715389706548_1_alg».proof.Proof.Finite
import Idealize.ShloMosaic.Adequacy
import Idealize.ShloMosaic.Init

set_option maxRecDepth 16384

noncomputable section

namespace Cert.Proof

open Idealize.ShloMosaic Idealize.SL.Sem Cert.Bridge Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no launch: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the normalised, aggregated hidden state; the two hidden states agree because the inputs are
    real numbers. -/
theorem algebraic : Cert.algebraic_KernelIdeal_ReferenceIdeal := by
  intro m ρ m' ρ' hpre hagree
  refine ⟨fun c => layerNorm
      (relMean (F := Ideal)
        (hidFused (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
      (fun q => (m ((c.tc : Thread Cert.KernelIdeal.nD Cert.KernelIdeal.τ).loc Cert.KernelIdeal.main_arg4)) (ix1 q)) (fun q => (m ((c.tc : Thread Cert.KernelIdeal.nD Cert.KernelIdeal.τ).loc Cert.KernelIdeal.main_arg5)) (ix1 q)), ?_, ?_⟩
  · exact (θ_run Cert.KernelIdeal.defs _ _).mono
      (fun r h c => ⟨(h c).1.trans (Cert.Bridge.Kernel.kernel_result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    obtain ⟨hx, h0, h1, h2⟩ := Cert.Bridge.Finite.real_of_pre _ _ _ _ _ _ _ _ _ _ _ _ (hpre c)
    rw [Cert.Bridge.Ref.ref_result m' c, a0, a1, a2, a3, a4, a5, a6, a7, a8, a9, a10, a11,
      ← hidFused_eq_hidSplit _ _ _ _ hx h0 h1 h2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
